-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg1 : IVec S2x500000 32) (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 4294867296#32
  let main_v24 : IVec S2x500000 32 := broadcastInDim S2x500000 ![] bcast_S_S2x500000 main_c_8
  let main_v25 : IVec S2x500000 1 := cmpi .sge main_arg1 main_v24
  let main_c_9 : IVec S_ 32 := constantI S_ 32 100000#32
  let main_v26 : IVec S2x500000 32 := broadcastInDim S2x500000 ![] bcast_S_S2x500000 main_c_9
  let main_v27 : IVec S2x500000 1 := cmpi .slt main_arg1 main_v26
  let main_v28 : IVec S2x500000 1 := andi main_v25 main_v27
  let main_c_10 : IVec S_ 1 := constantI S_ 1 1#1
  let main_v29 : IVec S_ 1 := (fun x v => Host.reduce IntOp.andi x v reducesTo_S2x500000_S_d0_1 h_S_) main_v28 main_c_10
  let main_v30 : IVec S_ 1 := andi main_v23 main_v29
  main_v30

def fn {F : FTy → Type} [FloatOps F] (main_arg0 : FVec F S100000x128 .f32) (main_arg1 : IVec S2x500000 32) (main_arg2 : FVec F S512x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg1 main_arg5 main_v13 main_v16
-- ==== Kernel.lean ====
abbrev S100000x128 : Shape := ⟨2, ![100000, 128]⟩
abbrev S2x500000 : Shape := ⟨2, ![2, 500000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S5000x128 : Shape := ⟨2, ![5000, 128]⟩
abbrev S5000x1 : Shape := ⟨2, ![5000, 1]⟩
abbrev S5000x256 : Shape := ⟨2, ![5000, 256]⟩
abbrev S256x128 : Shape := ⟨2, ![256, 128]⟩
abbrev S1x128 : Shape := ⟨2, ![1, 128]⟩

abbrev nBuf : Space → Nat
  | .hbm => 60
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S1, .i32⟩
  | .hbm, ⟨19, _⟩ => ⟨S_, .i32⟩
  | .hbm, ⟨20, _⟩ => ⟨S500000x1, .i32⟩
  | .hbm, ⟨21, _⟩ => ⟨S500000x1, .i1⟩
  | .hbm, ⟨22, _⟩ => ⟨S1x1, .i32⟩
  | .hbm, ⟨23, _⟩ => ⟨S500000x1, .i32⟩
  | .hbm, ⟨24, _⟩ => ⟨S500000x1, .i1⟩
  | .hbm, ⟨25, _⟩ => ⟨S500000x1, .i1⟩
  | .hbm, ⟨26, _⟩ => ⟨S_, .i1⟩
  | .hbm, ⟨27, _⟩ => ⟨S500000, .i1⟩
  | .hbm, ⟨28, _⟩ => ⟨S500000x128, .f32⟩
  | .hbm, ⟨29, _⟩ => ⟨S500000x128, .i1⟩
  | .hbm, ⟨30, _⟩ => ⟨S_, .f32⟩
  | .hbm, ⟨31, _⟩ => ⟨S500000x128, .f32⟩
  | .hbm, ⟨32, _⟩ => ⟨S500000x128, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S1, .i32⟩
  | .hbm, ⟨42, _⟩ => ⟨S_, .i32⟩
  | .hbm, ⟨43, _⟩ => ⟨S500000x1, .i32⟩
  | .hbm, ⟨44, _⟩ => ⟨S500000x1, .i1⟩
  | .hbm, ⟨45, _⟩ => ⟨S1x1, .i32⟩
  | .hbm, ⟨46, _⟩ => ⟨S500000x1, .i32⟩
  | .hbm, ⟨47, _⟩ => ⟨S500000x1, .i1⟩
  | .hbm, ⟨48, _⟩ => ⟨S500000x1, .i1⟩
  | .hbm, ⟨49, _⟩ => ⟨S_, .i1⟩
  | .hbm, ⟨50, _⟩ => ⟨S500000, .i1⟩
  | .hbm, ⟨51, _⟩ => ⟨S500000x128, .f32⟩
  | .hbm, ⟨52, _⟩ => ⟨S500000x128, .i1⟩
  | .hbm, ⟨53, _⟩ => ⟨S_, .f32⟩
  | .hbm, ⟨54, _⟩ => ⟨S500000x128, .f32⟩
  | .hbm, ⟨55, _⟩ => ⟨S500000x128, .f32⟩
  | .hbm, ⟨56, _⟩ => ⟨S512x128, .bf16⟩
  | .hbm, ⟨57, _⟩ => ⟨S128x1, .bf16⟩
  | .hbm, ⟨58, _⟩ => ⟨S500000x1, .f32⟩
  | .hbm, ⟨59, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S512x128, .bf16⟩
  | .local _ .vmem, ⟨5, _⟩ => ⟨S128, .f32⟩
  | .local _ .vmem, ⟨6, _⟩ => ⟨S128x1, .bf16⟩
  | .local _ .vmem, ⟨7, _⟩ => ⟨S1, .f32⟩
  | .local _ .vmem, ⟨8, _⟩ => ⟨S5000x1, .f32⟩
  | .local _ .vmem, ⟨9, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S512x128_S256x128_0_0 : ∀ a, (![0, 0] : Fin 2 → Nat) a + S256x128.size a ≤ S512x128.size a
  h_S256x128 : 0 < S256x128.numel
  shapeCasts_S256x128_S256x128 : S256x128.ShapeCasts S256x128
  inb_S512x128_S256x128_256_0 : ∀ a, (![256, 0] : Fin 2 → Nat) a + S256x128.size a ≤ S512x128.size a
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S500000x1.size a
  hwx0_6 : ∀ i : grid0.Coords, EltTy.bits .f32 = 32 ∨ (Rect.block (s := S500000x1) S5000x1.size (cc0_transform_6 i) (hinb0_6 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x512 : Shape := ⟨2, ![500000, 512]⟩
abbrev S1x128 : Shape := ⟨2, ![1, 128]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x500000, .i32⟩
  | .hbm, ⟨7, _⟩ => ⟨S500000, .i32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .f32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S500000x512, .f32⟩
  | .hbm, ⟨32, _⟩ => ⟨S500000x128, .f32⟩
  | .hbm, ⟨33, _⟩ => ⟨S1x128, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S500000x1, .f32⟩
  | .hbm, ⟨40, _⟩ => ⟨S1x1, .f32⟩
  | .hbm, ⟨41, _⟩ => ⟨S500000x1, .f32⟩
  | .hbm, ⟨42, _⟩ => ⟨S500000x1, .f32⟩
  | .hbm, ⟨43, _⟩ => ⟨S500000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x128_S500000x512_d1 : Shape.Concatenates [S500000x128, S500000x128, S500000x128, S500000x128] S500000x512 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S500000x512_S512x128_S500000x128_1_0_0_1_n_n_wf : DotDims.WF S500000x512 S512x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.IndexRange.lean ====
/-
  What the precondition says of the edge index array: every entry, read as a signed 32-bit integer, lies in
  [-100000, 100000) — the range in which indexing a 100000-row table is defined (a negative index counts from the
  end). The precondition is a conjunction of `jnp.all`s; its last conjunct reduces, by `and`, the elementwise
  conjunction of the two signed comparisons of the entries with -100000 and 100000, so where the whole is 1 every
  entry passes both comparisons.
-/
import proofs.«412763_j85341000172344_3_alg».proof.Pre_finite_inputs
import Idealize.ShloMosaic.Lib.ReduceAll
import Idealize.ShloMosaic.Lib.ValueIdx

namespace Cert.IndexRange

open Idealize.ShloMosaic Cert.Pre_finite_inputs

variable {F : FTy → Type} [FloatOps F] [Cert.Pre_finite_inputs.Facts]

/-- The scalar shape has one index. -/
instance : Subsingleton S_.Idx := ⟨fun a b => funext fun d => d.elim0⟩

theorem ofBool_eq_one (b : Bool) : BitVec.ofBool b = 1#1 ↔ b = true := by cases b <;> decide

/-- A word that is at least the word of -100000 and below the word of 100000, both signed, has its signed value in
    [-100000, 100000). -/
theorem toInt_range (w : BitVec 32) (h0 : IntOp.cmpi .sge w 4294867296#32 = 1#1) (h1 : IntOp.cmpi .slt w 100000#32 = 1#1) :
    -100000 ≤ w.toInt ∧ w.toInt < 100000 := by
  unfold IntOp.cmpi at h0 h1
  rw [ofBool_eq_one] at h0 h1
  simp only [BitVec.slt, BitVec.sle, decide_eq_true_eq] at h0 h1
  have e0 : (4294867296#32 : BitVec 32).toInt = -100000 := by decide
  have e1 : (100000#32 : BitVec 32).toInt = 100000 := by decide
  rw [e0] at h0
  rw [e1] at h1
  exact ⟨h0, h1⟩

/-- Under the precondition every entry of the index array is in [-100000, 100000), signed. -/
theorem in_range (a0 : FVec F S100000x128 .f32) (a1 : IVec S2x500000 32) (a2 : FVec F S512x128 .f32) (a3 : FVec F S128 .f32)
    (a4 : FVec F S128x1 .f32) (a5 : FVec F S1 .f32) (h : fn (F := F) a0 a1 a2 a3 a4 a5 = fun _ => 1#1) (i : S2x500000.Idx) :
    -100000 ≤ (a1 i).toInt ∧ (a1 i).toInt < 100000 := by
  have e := congrFun h ValueIdx.ix0
  unfold fn fn_part1 at e
  dsimp only at e
  obtain ⟨-, e29⟩ := IntOp.andi_eq_one.1 e
  have hi := Host.reduce_andi_all _ _ _ _ _ e29 i
  obtain ⟨hge, hlt⟩ := IntOp.andi_eq_one.1 hi
  exact toInt_range _ hge hlt

end Cert.IndexRange
-- ==== Proof.Spec.lean ====
/-
  The link-prediction score of one edge, as a function of the two endpoint rows and the weights, on the extended
  reals.

  An edge with endpoint rows `a`, `b` (128 lanes each) has the 512 features `a`, `b`, `|a − b|`, `a · b` laid end to
  end; the hidden layer is `max (features · W₁ + c₁) 0` (128 units) and the score is `hidden · W₂ + c₂`. The
  contraction over the 512 features can be taken whole, or as the sum of the contraction over the first 256
  features (`a` then `b`) and the contraction over the last 256 (`|a − b|` then `a · b`) against the matching halves
  of `W₁`. The two agree because a finite sum over `Fin 512` splits at 256 in any additive commutative monoid: no
  finiteness of the entries is used, so the law holds at the infinities too.
-/
import Idealize.ShloMosaic.PureOps.Ideal
import Mathlib.Algebra.BigOperators.Fin

noncomputable section

open scoped BigOperators

namespace Cert.EdgeScore

/-- The absolute value on the extended reals, as the larger of a number and its negative. -/
def eabs (x : EReal) : EReal := max x (-x)

/-- The 512 features of an edge whose endpoint rows are `a` and `b`: `a`, `b`, `|a − b|`, `a · b`. -/
def feat (a b : Fin 128 → EReal) (k : Fin 512) : EReal :=
  if h₁ : k.val < 128 then a ⟨k.val, h₁⟩
  else if h₂ : k.val < 256 then b ⟨k.val - 128, by omega⟩
  else if h₃ : k.val < 384 then eabs (a ⟨k.val - 256, by omega⟩ - b ⟨k.val - 256, by omega⟩)
  else a ⟨k.val - 384, by omega⟩ * b ⟨k.val - 384, by omega⟩

/-- The first 256 features: `a` then `b`. -/
def featRows (a b : Fin 128 → EReal) (k : Fin 256) : EReal :=
  if h : k.val < 128 then a ⟨k.val, h⟩ else b ⟨k.val - 128, by omega⟩

/-- The last 256 features: `|a − b|` then `a · b`. -/
def featPairs (a b : Fin 128 → EReal) (k : Fin 256) : EReal :=
  if h : k.val < 128 then eabs (a ⟨k.val, h⟩ - b ⟨k.val, h⟩) else a ⟨k.val - 128, by omega⟩ * b ⟨k.val - 128, by omega⟩

theorem feat_lo (a b : Fin 128 → EReal) (k : Fin 256) : feat a b ⟨k.val, by omega⟩ = featRows a b k := by
  unfold feat featRows
  by_cases h : k.val < 128
  · simp only [dif_pos h]
  · have h2 : k.val < 256 := k.isLt
    simp only [dif_neg h, dif_pos h2]

theorem feat_hi (a b : Fin 128 → EReal) (k : Fin 256) : feat a b ⟨256 + k.val, by omega⟩ = featPairs a b k := by
  unfold feat featPairs
  have n1 : ¬ (256 + k.val < 128) := by omega
  have n2 : ¬ (256 + k.val < 256) := by omega
  by_cases h : k.val < 128
  · have h3 : 256 + k.val < 384 := by omega
    simp only [dif_neg n1, dif_neg n2, dif_pos h3, dif_pos h, Nat.add_sub_cancel_left]
  · have h3 : ¬ (256 + k.val < 384) := by omega
    have e : 256 + k.val - 384 = k.val - 128 := by omega
    simp only [dif_neg n1, dif_neg n2, dif_neg h3, dif_neg h, e]

/-- A sum over 512 indices is the sum over the first 256 plus the sum over the last 256. -/
theorem sum_halves (f : Fin 512 → EReal) :
    ∑ k : Fin 512, f k = (∑ k : Fin 256, f ⟨k.val, by omega⟩) + ∑ k : Fin 256, f ⟨256 + k.val, by omega⟩ :=
  Fin.sum_univ_add (a := 256) (b := 256) f

/-- Hidden unit `n`: the 512 features against column `n` of `W₁`, plus the bias, clipped at zero. -/
def hiddenUnit (a b : Fin 128 → EReal) (W₁ : Fin 512 → Fin 128 → EReal) (c₁ : Fin 128 → EReal) (n : Fin 128) : EReal :=
  max ((∑ k : Fin 512, feat a b k * W₁ k n) + c₁ n) 0

/-- The same unit with the contraction taken in two halves, each against its half of `W₁`. -/
def hiddenHalves (a b : Fin 128 → EReal) (Wtop Wbot : Fin 256 → Fin 128 → EReal) (c₁ : Fin 128 → EReal) (n : Fin 128) : EReal :=
  max (((∑ k : Fin 256, featRows a b k * Wtop k n) + ∑ k : Fin 256, featPairs a b k * Wbot k n) + c₁ n) 0

/-- The two groupings of the contraction give one hidden unit. -/
theorem hiddenUnit_eq_halves (a b : Fin 128 → EReal) (W₁ : Fin 512 → Fin 128 → EReal) (c₁ : Fin 128 → EReal) (n : Fin 128) :
    hiddenUnit a b W₁ c₁ n
      = hiddenHalves a b (fun k n => W₁ ⟨k.val, by omega⟩ n) (fun k n => W₁ ⟨256 + k.val, by omega⟩ n) c₁ n := by
  unfold hiddenUnit hiddenHalves
  rw [sum_halves]
  simp only [feat_lo, feat_hi]

/-- The edge's score: the 128 hidden units against `W₂`, plus the output bias. -/
def score (a b : Fin 128 → EReal) (W₁ : Fin 512 → Fin 128 → EReal) (c₁ : Fin 128 → EReal) (W₂ : Fin 128 → EReal) (c₂ : EReal) : EReal :=
  (∑ n : Fin 128, hiddenUnit a b W₁ c₁ n * W₂ n) + c₂

/-- The score with every hidden unit's contraction taken in two halves. -/
def scoreHalves (a b : Fin 128 → EReal) (Wtop Wbot : Fin 256 → Fin 128 → EReal) (c₁ : Fin 128 → EReal) (W₂ : Fin 128 → EReal) (c₂ : EReal) : EReal :=
  (∑ n : Fin 128, hiddenHalves a b Wtop Wbot c₁ n * W₂ n) + c₂

theorem score_eq_halves (a b : Fin 128 → EReal) (W₁ : Fin 512 → Fin 128 → EReal) (c₁ : Fin 128 → EReal) (W₂ : Fin 128 → EReal) (c₂ : EReal) :
    score a b W₁ c₁ W₂ c₂
      = scoreHalves a b (fun k n => W₁ ⟨k.val, by omega⟩ n) (fun k n => W₁ ⟨256 + k.val, by omega⟩ n) c₁ W₂ c₂ := by
  unfold score scoreHalves
  simp only [hiddenUnit_eq_halves]

end Cert.EdgeScore

end
-- ==== Proof.Payload.lean ====
/-
  The kernel body's arithmetic at one row of a block. The body stores one value: for each of the block's 5000 edges,
  the score of the edge. Read at row `r` (the block has one column) it is the score with the contraction taken in two
  halves: the 256 lanes `[zi, zj]` against the top half of the first-layer weights plus the 256 lanes
  `[|zi − zj|, zi · zj]` against the bottom half, the bias added, clipped at zero, then the 128 hidden units
  against the second-layer weights plus the output bias. At the ideal values the changes of float format are the
  identity and a matrix product into a zero accumulator is the plain sum over the contraction index.
-/
import proofs.«412763_j85341000172344_3_alg».proof.Proof.Gen.KernelIdeal.Skeleton
import proofs.«412763_j85341000172344_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.EdgeScore

/-- The one column of a block of scores. -/
abbrev z0 : Fin 1 := ⟨0, Nat.one_pos⟩

/-! ## The layout operations at an index -/

/-- The first-layer bias, laid along every row of a block, read at row `r`, lane `n`. -/
theorem bias_row (v20 : Vec Ideal S128 .f32) (r : Fin 5000) (n : Fin 128) :
    broadcastTo S5000x128 (shapeCast S1x128 v20 shapeCasts_S128_S1x128) broadcasts_S1x128_S5000x128 (ix2 r n) = v20 (ix1 n) := by
  rw [broadcastTo_apply _ broadcasts_S1x128_S5000x128 (ix2 r n) (ix2 z0 n) (fun a => match a with
    | ⟨0, _⟩ => by show 0 = if (1 : Nat) = 1 then 0 else _; rw [if_pos rfl]
    | ⟨1, _⟩ => by show n.val = if (128 : Nat) = 1 then 0 else _; rw [if_neg (by decide)]; rfl)]
  exact shapeCast_apply v20 shapeCasts_S128_S1x128 (ix2 z0 n) (ix1 n)
    (by rewrite [Shape.rowMajor_val_two, Shape.rowMajor_val_one]; show n.val = 0 * 128 + n.val; omega)

/-- The output bias, laid along the block's one column, read at row `r`. -/
theorem bias_out (v30 : Vec Ideal S1 .f32) (r : Fin 5000) :
    broadcastTo S5000x1 (shapeCast S1x1 v30 shapeCasts_S1_S1x1) broadcasts_S1x1_S5000x1 (ix2 r z0) = v30 (ix1 z0) := by
  rw [broadcastTo_apply _ broadcasts_S1x1_S5000x1 (ix2 r z0) (ix2 z0 z0) (fun a => match a with
    | ⟨0, _⟩ => by show 0 = if (1 : Nat) = 1 then 0 else _; rw [if_pos rfl]
    | ⟨1, _⟩ => by show 0 = if (1 : Nat) = 1 then 0 else _; rw [if_pos rfl])]
  exact shapeCast_apply v30 shapeCasts_S1_S1x1 (ix2 z0 z0) (ix1 z0)
    (by rewrite [Shape.rowMajor_val_two, Shape.rowMajor_val_one]; show 0 = 0 * 1 + 0; rfl)

/-- Two 128-lane blocks joined along the lanes, read at row `r`, lane `k` of 256: the first block's lane `k` below
    128, the second block's lane `k − 128` from there on. -/
theorem concat_lanes (x y : FVec Ideal S5000x128 .bf16) (r : Fin 5000) (k : Fin 256) :
    concatenate S5000x256 1 [⟨S5000x128, x⟩, ⟨S5000x128, y⟩] concatenates_S5000x128_S5000x128_S5000x256_d1 (ix2 r k)
      = if h : k.val < 128 then x (ix2 r ⟨k.val, h⟩) else y (ix2 r ⟨k.val - 128, by omega⟩) := by
  by_cases h : k.val < 128
  · rw [dif_pos h]
    exact concatenate_pair_apply_left 1 x y _ (ix2 r k) rfl (ix2 r ⟨k.val, h⟩) (fun b => match b with
      | ⟨0, _⟩ => rfl
      | ⟨1, _⟩ => rfl)
  · rw [dif_neg h]
    exact concatenate_pair_apply_right 1 x y _ (ix2 r k) rfl rfl (ix2 r ⟨k.val - 128, by omega⟩)
      (fun b => match b with
        | ⟨0, _⟩ => fun _ => rfl
        | ⟨1, _⟩ => fun hne => absurd rfl hne)
      (by show (k.val - 128) + 128 = k.val; omega)

/-! ## The matrix products at an index -/

theorem lhs_rows_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_rows_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_rows_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_rows_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A [5000 × 256] by [256 × 128] product into a zero accumulator, at row `r`, lane `n`: the sum over the 256
    contracted lanes. -/
theorem dot_rows (A : FVec Ideal S5000x256 .bf16) (B : FVec Ideal S256x128 .bf16) (r : Fin 5000) (n : Fin 128) :
    matmul dot_S5000x256_S256x128_S5000x128_1_0_0_1_n_n none A B (constant S5000x128 .f32 0x00000000#32) (ix2 r n)
      = ∑ k : Fin 256, A (ix2 r k) * B (ix2 k n) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r n) ((contrEquiv1 dot_S5000x256_S256x128_S5000x128_1_0_0_1_n_n 256 rfl rfl).symm k) = ix2 r k := funext fun a => Fin.ext (by
    match a with
    | ⟨0, _⟩ => exact lhs_rows_0 _ _
    | ⟨1, _⟩ => exact (lhs_rows_1 _ _).trans hk)
  have er : dot_S5000x256_S256x128_S5000x128_1_0_0_1_n_n.rhsIdx (ix2 r n) ((contrEquiv1 dot_S5000x256_S256x128_S5000x128_1_0_0_1_n_n 256 rfl rfl).symm k) = ix2 k n := funext fun a => Fin.ext (by
    match a with
    | ⟨0, _⟩ => exact (rhs_rows_0 _ _).trans hk
    | ⟨1, _⟩ => exact rhs_rows_1 _ _)
  rw [el, er]

theorem lhs_out_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_out_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_out_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_out_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A [5000 × 128] by [128 × 1] product into a zero accumulator, at row `r`: the sum over the 128 hidden units. -/
theorem dot_out (H : FVec Ideal S5000x128 .bf16) (W : FVec Ideal S128x1 .bf16) (r : Fin 5000) :
    matmul dot_S5000x128_S128x1_S5000x1_1_0_0_1_n_n none H W (constant S5000x1 .f32 0x00000000#32) (ix2 r z0)
      = ∑ n : Fin 128, H (ix2 r n) * W (ix2 n z0) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r z0) ((contrEquiv1 dot_S5000x128_S128x1_S5000x1_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S5000x128_S128x1_S5000x1_1_0_0_1_n_n.rhsIdx (ix2 r z0) ((contrEquiv1 dot_S5000x128_S128x1_S5000x1_1_0_0_1_n_n 128 rfl rfl).symm k) = ix2 k z0 := funext fun a => Fin.ext (by
    match a with
    | ⟨0, _⟩ => exact (rhs_out_0 _ _).trans hk
    | ⟨1, _⟩ => exact rhs_out_1 _ _)
  rw [el, er]

/-! ## The two halves of the features -/

/-- The lanes `[zi, zj]` of row `r`, narrowed and joined, are the first 256 features of the edge. -/
theorem rows_feat (x y : FVec Ideal S5000x128 .f32) (r : Fin 5000) (k : Fin 256) :
    concatenate S5000x256 1 [⟨S5000x128, truncf .bf16 x bitsLt_bf16_f32⟩, ⟨S5000x128, truncf .bf16 y bitsLt_bf16_f32⟩]
        concatenates_S5000x128_S5000x128_S5000x256_d1 (ix2 r k)
      = featRows (fun q => x (ix2 r q)) (fun q => y (ix2 r q)) k := by
  rw [concat_lanes]
  rfl

/-- The lanes `[|zi − zj|, zi · zj]` of row `r`, narrowed and joined, are the last 256 features of the edge. -/
theorem pairs_feat (x y : FVec Ideal S5000x128 .f32) (r : Fin 5000) (k : Fin 256) :
    concatenate S5000x256 1 [⟨S5000x128, truncf .bf16 (absf (subf x y)) bitsLt_bf16_f32⟩, ⟨S5000x128, truncf .bf16 (mulf x y) bitsLt_bf16_f32⟩]
        concatenates_S5000x128_S5000x128_S5000x256_d1 (ix2 r k)
      = featPairs (fun q => x (ix2 r q)) (fun q => y (ix2 r q)) k := by
  rw [concat_lanes]
  rfl

/-! ## The payload -/

/-- The body's stored value at row `r` is the edge's score, its contraction in two halves. -/
theorem pay_apply (v0 v2 : Vec Ideal S5000x128 .f32) (v13 v15 : Vec Ideal S256x128 .bf16) (v20 : Vec Ideal S128 .f32)
    (v27 : Vec Ideal S128x1 .bf16) (v30 : Vec Ideal S1 .f32) (r : Fin 5000) :
    k0_pay1 (F := Ideal) v0 v2 v13 v15 v20 v27 v30 (ix2 r z0)
      = scoreHalves (fun q => v0 (ix2 r q)) (fun q => v2 (ix2 r q)) (fun k n => v13 (ix2 k n)) (fun k n => v15 (ix2 k n))
          (fun n => v20 (ix1 n)) (fun n => v27 (ix2 n z0)) (v30 (ix1 z0)) := by
  unfold k0_pay1
  simp only [shapeCast_self]
  rw [addf_apply, dot_out, bias_out]
  unfold scoreHalves
  congr 1
  refine Finset.sum_congr rfl fun n _ => ?_
  congr 1
  rw [truncf_apply, maximumf_apply, addf_apply, addf_apply, dot_rows, dot_rows, bias_row, broadcast_apply]
  unfold hiddenHalves
  simp only [pairs_feat]
  simp only [rows_feat]
  simp only [shapeCast_self, Ideal.ofBits_def, Ideal.ofBits_zero_f32]

end Cert.KernelIdeal.Payload

end
-- ==== Proof.KernelValue.lean ====
/-
  The kernel's result. The region runs over 100 grid points; point `t` reads rows 5000·t … 5000·t + 4999 of the two
  gathered arrays and the whole of the weights and biases, and writes back rows 5000·t … 5000·t + 4999 of the
  [500000 × 1] array of scores. What it writes is the block of ONE whole-array function of the operand arrays:
  row `e` holds the score of edge `e`, from rows `e` of the two gathered arrays. The 100 blocks tile the array, so
  after the region the array holds that function everywhere; the host's last operation flattens it.
-/
import proofs.«412763_j85341000172344_3_alg».proof.Proof.Gen.KernelIdeal.Frame
import proofs.«412763_j85341000172344_3_alg».proof.Proof.Payload
import Idealize.ShloMosaic.Lib.Pipeline.Value
import Idealize.ShloMosaic.Lib.StableHlo.Run

set_option maxRecDepth 16384

noncomputable section

namespace Cert.KernelIdeal.Scores

open Cert.KernelIdeal Cert.KernelIdeal.Gen Cert.KernelIdeal.Payload
open Idealize.ShloMosaic Idealize.ShloMosaic.TcCoe Idealize.ShloMosaic.ValueIdx Idealize.SL.Sem Cert.EdgeScore
open Idealize.ShloMosaic.Pipeline (Dat)

/-! ## The array of scores as one function of the operand arrays -/

/-- Row `e` of the [500000 × 1] array: the score of edge `e` from rows `e` of the two gathered arrays, the
    first-layer weights taken as their top and bottom halves. -/
def scoresOf (zi zj : Vec Ideal S500000x128 .f32) (W₁ : Vec Ideal S512x128 .bf16) (c₁ : Vec Ideal S128 .f32)
    (W₂ : Vec Ideal S128x1 .bf16) (c₂ : Vec Ideal S1 .f32) : Vec Ideal S500000x1 .f32 := fun i =>
  scoreHalves (fun q => zi (ix2 (i 0) q)) (fun q => zj (ix2 (i 0) q))
    (fun k n => W₁ (ix2 ⟨k.val, by omega⟩ n)) (fun k n => W₁ (ix2 ⟨256 + k.val, by omega⟩ n))
    (fun n => c₁ (ix1 n)) (fun n => W₂ (ix2 n z0)) (c₂ (ix1 z0))

/-! ## One block -/

theorem hz2 : (![0, 0] : Fin 2 → Nat) = fun _ => 0 := funext fun a => by fin_cases a <;> rfl
theorem hz1 : (![0] : Fin 1 → Nat) = fun _ => 0 := funext fun a => by fin_cases a; rfl

/-- The top half of the first-layer weights, as the body loads it. -/
theorem ld_top (x2 : Vec Ideal S512x128 .bf16) (k : Fin 256) (n : Fin 128) :
    View.ld x2 r0_1 (ix2 k n) = x2 (ix2 ⟨k.val, by omega⟩ n) :=
  congrArg x2 (funext fun a => Fin.ext (by
    match a with
    | ⟨0, _⟩ => show 0 + 1 * k.val = k.val; omega
    | ⟨1, _⟩ => show 0 + 1 * n.val = n.val; omega))

/-- The bottom half, loaded from row 256 on. -/
theorem ld_bot (x2 : Vec Ideal S512x128 .bf16) (k : Fin 256) (n : Fin 128) :
    View.ld x2 r0_2 (ix2 k n) = x2 (ix2 ⟨256 + k.val, by omega⟩ n) :=
  congrArg x2 (funext fun a => Fin.ext (by
    match a with
    | ⟨0, _⟩ => show 256 + 1 * k.val = 256 + k.val; omega
    | ⟨1, _⟩ => show 0 + 1 * n.val = n.val; omega))

/-- What the body leaves in the output block at row `r`: the score of the block's edge `r`. -/
theorem out_apply (x0 x1 : Vec Ideal S5000x128 .f32) (x2 : Vec Ideal S512x128 .bf16) (x3 : Vec Ideal S128 .f32)
    (x4 : Vec Ideal S128x1 .bf16) (x5 : Vec Ideal S1 .f32) (r : Fin 5000) :
    out0_6 (F := Ideal) x0 x1 x2 x3 x4 x5 (ix2 r z0)
      = scoreHalves (fun q => x0 (ix2 r q)) (fun q => x1 (ix2 r q))
          (fun k n => x2 (ix2 ⟨k.val, by omega⟩ n)) (fun k n => x2 (ix2 ⟨256 + k.val, by omega⟩ n))
          (fun n => x3 (ix1 n)) (fun n => x4 (ix2 n z0)) (x5 (ix1 z0)) := by
  unfold out0_6
  rw [View.canon_unit_zero hz2]
  simp only [View.ld_unit_zero (S := S5000x128) hz2, View.ld_unit_zero (S := S128) hz1, View.ld_unit_zero (S := S128x1) hz2,
    View.ld_unit_zero (S := S1) hz1]
  rw [pay_apply]
  have ht : (fun (k : Fin 256) (n : Fin 128) => View.ld x2 r0_1 (ix2 k n)) = fun k n => x2 (ix2 ⟨k.val, by omega⟩ n) :=
    funext fun k => funext fun n => ld_top x2 k n
  have hb : (fun (k : Fin 256) (n : Fin 128) => View.ld x2 r0_2 (ix2 k n)) = fun k n => x2 (ix2 ⟨256 + k.val, by omega⟩ n) :=
    funext fun k => funext fun n => ld_bot x2 k n
  rw [ht, hb]

/-! ## The operand arrays and their blocks -/

variable (m : (ℓ : Loc nD τ sig) → Buf (Elt Ideal) ℓ)

/-- The six operand arrays as the region finds them. -/
abbrev ziArr (c : Dev nD) : Vec Ideal S500000x128 .f32 := V m c main_v4
abbrev zjArr (c : Dev nD) : Vec Ideal S500000x128 .f32 := V m c main_v5
abbrev w1Arr (c : Dev nD) : Vec Ideal S512x128 .bf16 := V m c main_v6
abbrev b1Arr (c : Dev nD) : Vec Ideal S128 .f32 := V m c main_arg3
abbrev w2Arr (c : Dev nD) : Vec Ideal S128x1 .bf16 := V m c main_v7
abbrev b2Arr (c : Dev nD) : Vec Ideal S1 .f32 := V m c main_arg5

/-- The array of scores the region leaves. -/
def scores (c : Dev nD) : Vec Ideal S500000x1 .f32 :=
  scoresOf (ziArr m c) (zjArr m c) (w1Arr m c) (b1Arr m c) (w2Arr m c) (b2Arr m c)

/-- The operands' blocks at grid point `t`. -/
abbrev blk0 (c : Dev nD) (t : Fin cfg0.N) : Vec Ideal S5000x128 .f32 := iblk m c 0 t
abbrev blk1 (c : Dev nD) (t : Fin cfg0.N) : Vec Ideal S5000x128 .f32 := iblk m c 1 t
abbrev blk2 (c : Dev nD) (t : Fin cfg0.N) : Vec Ideal S512x128 .bf16 := iblk m c 2 t
abbrev blk3 (c : Dev nD) (t : Fin cfg0.N) : Vec Ideal S128 .f32 := iblk m c 3 t
abbrev blk4 (c : Dev nD) (t : Fin cfg0.N) : Vec Ideal S128x1 .bf16 := iblk m c 4 t
abbrev blk5 (c : Dev nD) (t : Fin cfg0.N) : Vec Ideal S1 .f32 := iblk m c 5 t

/-- The index maps over the grid: the two gathered arrays move with the output, one block of 5000 rows per point;
    the weights and biases stay at their one block. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) < 100 :=
  (by decide +kernel : ∀ t : Fin grid0.N, _)

/-- Every block of the output is some point's. -/
theorem idx_onto : ∀ q : Fin 100, ∃ t : Fin cfg0.N, win0_6.index t = ![q.val, 0] :=
  (by decide +kernel : ∀ q : Fin 100, ∃ t : Fin grid0.N, win0_6.index t = ![q.val, 0])

theorem blk0_apply (c : Dev nD) (t : Fin cfg0.N) (r : Fin 5000) (q : Fin 128) (e : Fin 500000)
    (he : e.val = win0_6.index t (0 : Fin 2) * 5000 + r.val) : blk0 m c t (ix2 r q) = ziArr m c (ix2 e q) := by
  obtain ⟨e00, e01, -⟩ := idx_facts t
  show V m c main_v4 (((cfg0.win 0).blk t).view.emb (ix2 r q)) = V m c main_v4 (ix2 e q)
  refine congrArg (V m c main_v4) (funext fun a => Fin.ext ?_)
  match a with
  | ⟨0, _⟩ => show win0_0.index t (0 : Fin 2) * 5000 + 1 * r.val = e.val; omega
  | ⟨1, _⟩ => show win0_0.index t (1 : Fin 2) * 128 + 1 * q.val = q.val; omega

theorem blk1_apply (c : Dev nD) (t : Fin cfg0.N) (r : Fin 5000) (q : Fin 128) (e : Fin 500000)
    (he : e.val = win0_6.index t (0 : Fin 2) * 5000 + r.val) : blk1 m c t (ix2 r q) = zjArr m c (ix2 e q) := by
  obtain ⟨-, -, e10, e11, -⟩ := idx_facts t
  show V m c main_v5 (((cfg0.win 1).blk t).view.emb (ix2 r q)) = V m c main_v5 (ix2 e q)
  refine congrArg (V m c main_v5) (funext fun a => Fin.ext ?_)
  match a with
  | ⟨0, _⟩ => show win0_1.index t (0 : Fin 2) * 5000 + 1 * r.val = e.val; omega
  | ⟨1, _⟩ => show win0_1.index t (1 : Fin 2) * 128 + 1 * q.val = q.val; omega

theorem blk2_apply (c : Dev nD) (t : Fin cfg0.N) (k : Fin 512) (n : Fin 128) : blk2 m c t (ix2 k n) = w1Arr m c (ix2 k n) := by
  obtain ⟨-, -, -, -, e20, e21, -⟩ := idx_facts t
  show V m c main_v6 (((cfg0.win 2).blk t).view.emb (ix2 k n)) = V m c main_v6 (ix2 k n)
  refine congrArg (V m c main_v6) (funext fun a => Fin.ext ?_)
  match a with
  | ⟨0, _⟩ => show win0_2.index t (0 : Fin 2) * 512 + 1 * k.val = k.val; omega
  | ⟨1, _⟩ => show win0_2.index t (1 : Fin 2) * 128 + 1 * n.val = n.val; omega

theorem blk3_apply (c : Dev nD) (t : Fin cfg0.N) (n : Fin 128) : blk3 m c t (ix1 n) = b1Arr m c (ix1 n) := by
  obtain ⟨-, -, -, -, -, -, e3, -⟩ := idx_facts t
  show V m c main_arg3 (((cfg0.win 3).blk t).view.emb (ix1 n)) = V m c main_arg3 (ix1 n)
  refine congrArg (V m c main_arg3) (funext fun a => Fin.ext ?_)
  match a with
  | ⟨0, _⟩ => show win0_3.index t (0 : Fin 1) * 128 + 1 * n.val = n.val; omega

theorem blk4_apply (c : Dev nD) (t : Fin cfg0.N) (n : Fin 128) : blk4 m c t (ix2 n z0) = w2Arr m c (ix2 n z0) := by
  obtain ⟨-, -, -, -, -, -, -, e40, e41, -⟩ := idx_facts t
  show V m c main_v7 (((cfg0.win 4).blk t).view.emb (ix2 n z0)) = V m c main_v7 (ix2 n z0)
  refine congrArg (V m c main_v7) (funext fun a => Fin.ext ?_)
  match a with
  | ⟨0, _⟩ => show win0_4.index t (0 : Fin 2) * 128 + 1 * n.val = n.val; omega
  | ⟨1, _⟩ => show win0_4.index t (1 : Fin 2) * 1 + 1 * 0 = 0; omega

theorem blk5_apply (c : Dev nD) (t : Fin cfg0.N) : blk5 m c t (ix1 z0) = b2Arr m c (ix1 z0) := by
  obtain ⟨-, -, -, -, -, -, -, -, -, e5, -⟩ := idx_facts t
  show V m c main_arg5 (((cfg0.win 5).blk t).view.emb (ix1 z0)) = V m c main_arg5 (ix1 z0)
  refine congrArg (V m c main_arg5) (funext fun a => Fin.ext ?_)
  match a with
  | ⟨0, _⟩ => show win0_5.index t (0 : Fin 1) * 1 + 1 * 0 = 0; omega

/-! ## What a point writes back, and the array after the region -/

/-- Point `t` writes back block `t` of the array of scores. -/
theorem flushed_eq (c : Dev nD) (t : Fin cfg0.N) :
    (dats m 0 c).flushed 6 t = ((cfg0.win 6).blk t).view.read (Elt Ideal) (scores m c) := by
  show (cfg0.win 6).cut (grid0.coords t) ((dats m 0 c).after 6 t) = _
  rw [after0_6]
  funext j
  obtain ⟨-, -, -, -, -, -, -, -, -, -, e61, e60⟩ := idx_facts t
  have hj0 : (j 0).val < 5000 := (j 0).isLt
  have hj1 : (j 1).val < 1 := (j 1).isLt
  have hj : (j : S5000x1.Idx) = ix2 (⟨(j 0).val, hj0⟩ : Fin 5000) z0 := funext fun a => Fin.ext (by
    match a with
    | ⟨0, _⟩ => rfl
    | ⟨1, _⟩ => show (j 1).val = 0; omega)
  have hemb : (((cfg0.win 6).blk t).view.emb j : S500000x1.Idx)
      = ix2 (⟨win0_6.index t (0 : Fin 2) * 5000 + (j 0).val, by omega⟩ : Fin 500000) z0 := funext fun a => Fin.ext (by
    match a with
    | ⟨0, _⟩ => show win0_6.index t (0 : Fin 2) * 5000 + 1 * (j 0).val = win0_6.index t (0 : Fin 2) * 5000 + (j 0).val; omega
    | ⟨1, _⟩ => show win0_6.index t (1 : Fin 2) * 1 + 1 * (j 1).val = 0; omega)
  refine (congrArg (out0_6 (F := Ideal) (blk0 m c t) (blk1 m c t) (blk2 m c t) (blk3 m c t) (blk4 m c t) (blk5 m c t)) hj).trans ?_
  refine (out_apply (blk0 m c t) (blk1 m c t) (blk2 m c t) (blk3 m c t) (blk4 m c t) (blk5 m c t) ⟨(j 0).val, hj0⟩).trans ?_
  refine Eq.trans ?_ (congrArg (scores m c) hemb).symm
  show _ = scoreHalves
    (fun q => ziArr m c (ix2 (⟨win0_6.index t (0 : Fin 2) * 5000 + (j 0).val, by omega⟩ : Fin 500000) q))
    (fun q => zjArr m c (ix2 (⟨win0_6.index t (0 : Fin 2) * 5000 + (j 0).val, by omega⟩ : Fin 500000) q))
    (fun k n => w1Arr m c (ix2 ⟨k.val, by omega⟩ n)) (fun k n => w1Arr m c (ix2 ⟨256 + k.val, by omega⟩ n))
    (fun n => b1Arr m c (ix1 n)) (fun n => w2Arr m c (ix2 n z0)) (b2Arr m c (ix1 z0))
  have h0 : (fun q : Fin 128 => blk0 m c t (ix2 (⟨(j 0).val, hj0⟩ : Fin 5000) q))
      = fun q => ziArr m c (ix2 (⟨win0_6.index t (0 : Fin 2) * 5000 + (j 0).val, by omega⟩ : Fin 500000) q) :=
    funext fun q => blk0_apply m c t _ q _ rfl
  have h1 : (fun q : Fin 128 => blk1 m c t (ix2 (⟨(j 0).val, hj0⟩ : Fin 5000) q))
      = fun q => zjArr m c (ix2 (⟨win0_6.index t (0 : Fin 2) * 5000 + (j 0).val, by omega⟩ : Fin 500000) q) :=
    funext fun q => blk1_apply m c t _ q _ rfl
  have h2t : (fun (k : Fin 256) (n : Fin 128) => blk2 m c t (ix2 ⟨k.val, by omega⟩ n))
      = fun k n => w1Arr m c (ix2 ⟨k.val, by omega⟩ n) := funext fun k => funext fun n => blk2_apply m c t _ n
  have h2b : (fun (k : Fin 256) (n : Fin 128) => blk2 m c t (ix2 ⟨256 + k.val, by omega⟩ n))
      = fun k n => w1Arr m c (ix2 ⟨256 + k.val, by omega⟩ n) := funext fun k => funext fun n => blk2_apply m c t _ n
  have h3 : (fun n : Fin 128 => blk3 m c t (ix1 n)) = fun n => b1Arr m c (ix1 n) := funext fun n => blk3_apply m c t n
  have h4 : (fun n : Fin 128 => blk4 m c t (ix2 n z0)) = fun n => w2Arr m c (ix2 n z0) := funext fun n => blk4_apply m c t n
  rw [h0, h1, h2t, h2b, h3, h4, blk5_apply]

/-- An index of the array is in point `t`'s block iff each coordinate is in the block's range on its axis. -/
theorem mem_blk (t : Fin cfg0.N) (i : S500000x1.Idx) :
    i ∈ ((cfg0.win 6).blk t).view.set ↔ ∀ a : Fin 2, win0_6.index t a * S5000x1.size a ≤ (i a).val ∧ (i a).val < win0_6.index t a * S5000x1.size a + S5000x1.size a := by
  show i ∈ ((View.whole main_v8).slice (win0_6.rect t)).set ↔ _
  rw [View.set_slice_whole, Rect.mem_set_unit]
  exact Iff.rfl

/-- The 100 blocks tile the array: row `e` lies in the block of point `e / 5000`. -/
theorem cover (i : S500000x1.Idx) : ∃ t : Fin cfg0.N, (cfg0.win 6).flush t = true ∧ i ∈ ((cfg0.win 6).blk t).view.set := by
  have hi0 : (i 0).val < 500000 := (i 0).isLt
  have hi1 : (i 1).val < 1 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 1 ≤ (i 1).val ∧ (i 1).val < win0_6.index t (1 : Fin 2) * 1 + 1; omega

/-- After the region the output array holds the scores. -/
theorem final (c : Dev nD) : (dats m 0 c).arrAt 6 cfg0.N = scores m c :=
  (dats m 0 c).arrAt_eq_of_cover 6 (scores m c) (fun t _ => flushed_eq m c t) (cover)

end Cert.KernelIdeal.Scores

end
-- ==== Proof.KernelRun.lean ====
/-
  The kernel program's run, with its result named. After the region the host flattens the [500000 × 1] array of
  scores into the result vector: entry `e` of the result is row `e` of the array. The argument arrays end as they
  were launched.
-/
import proofs.«412763_j85341000172344_3_alg».proof.Proof.KernelValue

set_option maxRecDepth 16384

noncomputable section

namespace Cert.KernelIdeal.Scores

open Cert.KernelIdeal Cert.KernelIdeal.Gen Cert.KernelIdeal.Payload
open Idealize.ShloMosaic Idealize.ShloMosaic.TcCoe Idealize.ShloMosaic.ValueIdx Idealize.SL.Sem Cert.EdgeScore
open Idealize.ShloMosaic.StableHlo

variable (m : (ℓ : Loc nD τ sig) → Buf (Elt Ideal) ℓ) (ρ : Dev nD → PrngReg)

/-- The result vector after the host's last operation: the array of scores, flattened. -/
theorem result_eq (c : Dev nD) :
    Pipeline.afterTail₀ cfgs (dats m) 0 (V0 m) [hostOps1] c main_v9
      = shapeCast S500000 (scores m c) shapeCasts_S500000x1_S500000 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = scores m c :=
    (Pipeline.withArrays_arr spec0 launch0.win.arr_inj c (V0 m c) (fun w => (dats m 0 c).arrAt w cfg0.N) 6).trans (final m c)
  rw [e]
  rfl

/-- Every weakly fair execution of the kernel program ends with the result vector at the flattened array of scores
    and the six argument arrays as launched. -/
theorem run : θ_run defs (onTc (τ := τ) (main (F := Ideal))) ⟨m, fun _ => 0, ρ⟩ fun r => ∀ c : Dev nD,
      r.2.mem ((c.tc : Thread nD τ).loc main_v9) = shapeCast S500000 (scores m c) shapeCasts_S500000x1_S500000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Scores

end
-- ==== Proof.LibReduceAndOne.lean ====
/-
  A `stablehlo.reduce` by `and`, read forwards.

  The library reads a reduce by `and` that came out 1 backwards (Lib/ReduceAll.lean: every element that reduces
  into the result was 1). This is the converse: from the initial value 1, the reduce is 1 at every result index
  all of whose contributing elements are 1 — what a proof needs when an operation guards a read with an
  in-bounds test that holds (jnp's `take_along_axis` selects its gathered value under such a test).
-/
import Idealize.ShloMosaic.PureOps.Reduce
import Idealize.ShloMosaic.PureOps.Contract

namespace Idealize.ShloMosaic

namespace IntOp

/-- A left fold by `and` from 1 over `i1` words that are all 1 is 1. -/
theorem foldl_andi_one {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    show l.foldl (fun r n => andi r (f n)) (andi 1#1 1#1) = 1#1
    exact foldl_andi_one f l fun n hn => h n (List.mem_cons_of_mem _ hn)

end IntOp

namespace Host

variable {s t u : Shape} {axes : List (Fin s.rank)}

/-- A `stablehlo.reduce` by `and` from the initial value 1 is 1 at `j` when every operand element that reduces
    into `j` is 1. -/
theorem reduce_andi_one (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  unfold Host.reduce
  rw [hinit]
  refine IntOp.foldl_andi_one (fun n => x (s.rowMajor.symm n)) _ fun n hn => hx _ ?_
  have := (List.mem_filter.mp hn).2
  simpa using this

end Host

end Idealize.ShloMosaic
-- ==== Proof.Take.lean ====
/-
  `jnp.take(z, v, axis=0)` over a 100000-row table, as it is lowered: the index vector is wrapped (a negative
  entry has 100000 added), laid out as a column of start indices, tested entry by entry for lying in [0, 99999],
  the rows gathered, and every row whose test fails replaced by a fill value. When every entry of `v` is in
  [-100000, 100000) the wrapped entry is in [0, 99999], every test passes, and the result is the plain gather of
  the rows at the wrapped indices.
-/
import proofs.«412763_j85341000172344_3_alg».proof.KernelIdeal
import proofs.«412763_j85341000172344_3_alg».proof.Proof.LibReduceAndOne
import Idealize.ShloMosaic.Lib.ValueIdx
import Idealize.ShloMosaic.Lib.Pipeline.Value
import Idealize.ShloMosaic.Lib.Affine
import Mathlib.Tactic.SplitIfs

noncomputable section

namespace Cert.KernelIdeal.Take

open Idealize.ShloMosaic Idealize.ShloMosaic.ValueIdx Cert.KernelIdeal

variable {F : FTy → Type} [FloatOps F] [Cert.KernelIdeal.Facts]
open Facts₀

/-! ## One index word -/

theorem ofBool_eq_one (b : Bool) : BitVec.ofBool b = 1#1 ↔ b = true := by cases b <;> decide

/-- Adding 100000 to a word whose signed value is in [-100000, 0) does not wrap. -/
theorem toInt_add_table (x : BitVec 32) (h0 : -100000 ≤ x.toInt) (h1 : x.toInt < 0) :
    (x + 100000#32).toInt = x.toInt + 100000 := by
  have eN : (100000#32 : BitVec 32).toInt = 100000 := by decide
  rw [BitVec.toInt_add, eN, Int.bmod_def]
  split_ifs <;> omega

/-- A word in [-100000, 100000), wrapped, passes both range tests: it is at least 0 and at most 99999. -/
theorem wrap_word (x : BitVec 32) (h : -100000 ≤ x.toInt ∧ x.toInt < 100000) :
    IntOp.cmpi .sge (Scalar.select (IntOp.cmpi .slt x 0#32) (IntOp.addi x 100000#32) x) 0#32 = 1#1
    ∧ IntOp.cmpi .sle (Scalar.select (IntOp.cmpi .slt x 0#32) (IntOp.addi x 100000#32) x) 99999#32 = 1#1 := by
  obtain ⟨hlo, hhi⟩ := h
  have e0 : (0#32 : BitVec 32).toInt = 0 := by decide
  have e9 : (99999#32 : BitVec 32).toInt = 99999 := by decide
  by_cases hneg : x.toInt < 0
  · have hc : IntOp.cmpi .slt x 0#32 = 1#1 := by
      unfold IntOp.cmpi
      rw [ofBool_eq_one]
      simp only [BitVec.slt, decide_eq_true_eq, e0]
      exact hneg
    have hw := toInt_add_table x hlo hneg
    rw [hc, select_one]
    unfold IntOp.cmpi IntOp.addi
    simp only [ofBool_eq_one, BitVec.sle, decide_eq_true_eq, e0, e9, hw]
    omega
  · have hc : IntOp.cmpi .slt x 0#32 = 0#1 := by
      apply eq_zero_of_ne_one
      unfold IntOp.cmpi
      rw [ofBool_eq_one]
      simp only [BitVec.slt, decide_eq_true_eq, e0]
      exact hneg
    rw [hc, select_zero]
    unfold IntOp.cmpi
    simp only [ofBool_eq_one, BitVec.sle, decide_eq_true_eq, e0, e9]
    omega

/-! ## The index vector -/

/-- The index vector with its negative entries counted from the end of the table. -/
def wrapped (v : IVec S500000 32) : IVec S500000 32 :=
  select (cmpi .slt v (broadcastInDim S500000 ![] bcast_S_S500000 (constantI S_ 32 0#32)))
    (addi v (broadcastInDim S500000 ![] bcast_S_S500000 (constantI S_ 32 100000#32))) v

/-- The wrapped indices as the gather's column of start indices. -/
def starts (v : IVec S500000 32) : IVec S500000x1 32 :=
  broadcastInDim S500000x1 ![0] bcast_S500000_S500000x1_0 (wrapped v)

/-- Row by row: does the start index lie in [0, 99999]? -/
def inTable (v : IVec S500000 32) : IVec S500000 1 :=
  Host.reduce IntOp.andi
    (andi (cmpi .sge (starts v) (broadcastInDim S500000x1 ![] bcast_S_S500000x1 (constantI S_ 32 0#32)))
      (cmpi .sle (starts v) (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- `jnp.take(z, v, axis=0)` as lowered: the gathered rows where the test passes, the fill value elsewhere. -/
def take (z : FVec F S100000x128 .f32) (v : IVec S500000 32) : FVec F S500000x128 .f32 :=
  select (broadcastInDim S500000x128 ![0] bcast_S500000_S500000x128_0 (inTable v))
    (Host.gather gather_S100000x128_S500000x1_S500000x128_1_0_n_n_0_1_1128 z (starts v))
    (broadcastInDim S500000x128 ![] bcast_S_S500000x128 (constant S_ .f32 0x7FC00000#32))

/-- A start index is the wrapped entry of its row. -/
theorem starts_apply (v : IVec S500000 32) (i : S500000x1.Idx) :
    starts v i = Scalar.select (IntOp.cmpi .slt (v (ix1 (i 0))) 0#32) (IntOp.addi (v (ix1 (i 0))) 100000#32) (v (ix1 (i 0))) := by
  unfold starts
  rw [broadcastInDim_apply _ bcast_S500000_S500000x1_0 (wrapped v) i (ix1 (i 0)) (fun a => match a with
    | ⟨0, _⟩ => by show (i 0).val = if (500000 : Nat) = 1 then 0 else (i 0).val; rw [if_neg (by decide)])]
  rfl

/-- With every entry in [-100000, 100000) every row passes the test. -/
theorem inTable_one (v : IVec S500000 32) (hv : ∀ p : S500000.Idx, -100000 ≤ (v p).toInt ∧ (v p).toInt < 100000)
    (p : S500000.Idx) : inTable v p = 1#1 := by
  unfold inTable
  refine Host.reduce_andi_one _ _ _ _ p rfl (fun i _ => ?_)
  show IntOp.andi (IntOp.cmpi .sge (starts v i) 0#32) (IntOp.cmpi .sle (starts v i) 99999#32) = 1#1
  rw [starts_apply]
  exact IntOp.andi_eq_one.2 (wrap_word _ (hv _))

/-- So the take is the gather at the wrapped indices. -/
theorem take_eq_gather (z : FVec F S100000x128 .f32) (v : IVec S500000 32)
    (hv : ∀ p : S500000.Idx, -100000 ≤ (v p).toInt ∧ (v p).toInt < 100000) :
    take z v = Host.gather gather_S100000x128_S500000x1_S500000x128_1_0_n_n_0_1_1128 z (starts v) := by
  funext j
  unfold take
  rw [select_apply]
  have h1 : broadcastInDim S500000x128 ![0] bcast_S500000_S500000x128_0 (inTable v) j = 1#1 := by
    rw [broadcastInDim_apply _ bcast_S500000_S500000x128_0 (inTable v) j (ix1 (j 0)) (fun a => match a with
      | ⟨0, _⟩ => by show (j 0).val = if (500000 : Nat) = 1 then 0 else (j 0).val; rw [if_neg (by decide)])]
    exact inTable_one v hv _
  rw [h1, select_one]

end Cert.KernelIdeal.Take

end
-- ==== Proof.KernelHost.lean ====
/-
  What the kernel's region finds in its operand arrays. Before the region the host program cuts the two rows out of
  the edge index array, takes the rows of `z` at each (`jnp.take`, twice) and narrows the two weight matrices to
  bf16; the biases go in as they are. Read at the ideal values the narrowing is the identity, and under the index
  range of the precondition each take is the plain gather of the rows at the wrapped indices.
-/
import proofs.«412763_j85341000172344_3_alg».proof.Proof.Gen.KernelIdeal.Frame
import proofs.«412763_j85341000172344_3_alg».proof.Proof.Take
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- Row 0 of the edge index array: the source node of each edge. -/
def srcIdx (c : Dev nD) : IVec S500000 32 :=
  shapeCast S500000 (extractStridedSlice S1x500000 ![0, 0] (m ((c : Thread nD τ).loc main_arg1)) slices_S2x500000_S1x500000_0_0)
    shapeCasts_S1x500000_S500000

/-- Row 1 of the edge index array: the destination node of each edge. -/
def dstIdx (c : Dev nD) : IVec S500000 32 :=
  shapeCast S500000 (extractStridedSlice S1x500000 ![1, 0] (m ((c : Thread nD τ).loc main_arg1)) slices_S2x500000_S1x500000_1_0)
    shapeCasts_S1x500000_S500000

/-- The region's first operand: the rows of `z` taken at the source nodes. -/
theorem V_zi (c : Dev nD) :
    (V m c main_v4 : (⟨S500000x128, .f32⟩ : BufTy).Contents (Elt F))
      = Take.take (m ((c : Thread nD τ).loc main_arg0)) (srcIdx m c) := by
  dsimp only [V, V0]
  simp only [hostOps0, hostOps0_1, hostOps0_2, hostOps0_3, List.flatten_cons, List.flatten_nil, List.append_nil,
    List.cons_append, List.nil_append]
  after_results_simp
  simp only [TRef.toBuf, TRef.ofBuf, cast_eq]
  rfl

/-- The region's second operand: the rows of `z` taken at the destination nodes. -/
theorem V_zj (c : Dev nD) :
    (V m c main_v5 : (⟨S500000x128, .f32⟩ : BufTy).Contents (Elt F))
      = Take.take (m ((c : Thread nD τ).loc main_arg0)) (dstIdx m c) := by
  dsimp only [V, V0]
  simp only [hostOps0, hostOps0_1, hostOps0_2, hostOps0_3, List.flatten_cons, List.flatten_nil, List.append_nil,
    List.cons_append, List.nil_append]
  after_results_simp
  simp only [TRef.toBuf, TRef.ofBuf, cast_eq]
  rfl

/-- The region's third operand: the first-layer weights, narrowed. -/
theorem V_w1 (c : Dev nD) :
    (V m c main_v6 : (⟨S512x128, .bf16⟩ : BufTy).Contents (Elt F))
      = truncf .bf16 (m ((c : Thread nD τ).loc main_arg2)) bitsLt_bf16_f32 := by
  dsimp only [V, V0]
  simp only [hostOps0, hostOps0_1, hostOps0_2, hostOps0_3, List.flatten_cons, List.flatten_nil, List.append_nil,
    List.cons_append, List.nil_append]
  after_results_simp

/-- The region's fifth operand: the second-layer weights, narrowed. -/
theorem V_w2 (c : Dev nD) :
    (V m c main_v7 : (⟨S128x1, .bf16⟩ : BufTy).Contents (Elt F))
      = truncf .bf16 (m ((c : Thread nD τ).loc main_arg4)) bitsLt_bf16_f32 := by
  dsimp only [V, V0]
  simp only [hostOps0, hostOps0_1, hostOps0_2, hostOps0_3, List.flatten_cons, List.flatten_nil, List.append_nil,
    List.cons_append, List.nil_append]
  after_results_simp

/-! ## The index range, row by row -/

/-- Entry `p` of the source row is an entry of the edge index array. -/
theorem srcIdx_apply (c : Dev nD) (p : S500000.Idx) :
    ∃ i : S2x500000.Idx, srcIdx m c p = (m ((c : Thread nD τ).loc main_arg1) : IVec S2x500000 32) i := by
  unfold srcIdx
  let j : S1x500000.Idx := fun a => match a with
    | ⟨0, _⟩ => ⟨0, Nat.one_pos⟩
    | ⟨1, _⟩ => ⟨((p 0).val) % 500000, by have h0 : (p 0).val < 500000 := (p 0).isLt; show ((p 0).val) % 500000 < 500000; omega⟩
  let k : S2x500000.Idx := fun a => match a with
    | ⟨0, _⟩ => ⟨(j 0).val, by have h0 : (j 0).val < 1 := (j 0).isLt; show (j 0).val < 2; omega⟩
    | ⟨1, _⟩ => ⟨(j 1).val, (j 1).isLt⟩
  refine ⟨k, ?_⟩
  rw [shapeCast_apply _ shapeCasts_S1x500000_S500000 p j
    (by rewrite [Shape.rowMajor_val_two, Shape.rowMajor_val_one]; have h0 : (p 0).val < 500000 := (p 0).isLt; show 0 * 500000 + ((p 0).val) % 500000 = (p 0).val; omega)]
  exact extractStridedSlice_apply ![0, 0] _ slices_S2x500000_S1x500000_0_0 j k (fun a => match a with
    | ⟨0, _⟩ => by show (j 0).val = 0 + (j 0).val; omega
    | ⟨1, _⟩ => by show (j 1).val = 0 + (j 1).val; omega)

/-- Entry `p` of the destination row is an entry of the edge index array. -/
theorem dstIdx_apply (c : Dev nD) (p : S500000.Idx) :
    ∃ i : S2x500000.Idx, dstIdx m c p = (m ((c : Thread nD τ).loc main_arg1) : IVec S2x500000 32) i := by
  unfold dstIdx
  let j : S1x500000.Idx := fun a => match a with
    | ⟨0, _⟩ => ⟨0, Nat.one_pos⟩
    | ⟨1, _⟩ => ⟨((p 0).val) % 500000, by have h0 : (p 0).val < 500000 := (p 0).isLt; show ((p 0).val) % 500000 < 500000; omega⟩
  let k : S2x500000.Idx := fun a => match a with
    | ⟨0, _⟩ => ⟨1 + (j 0).val, by have h0 : (j 0).val < 1 := (j 0).isLt; show 1 + (j 0).val < 2; omega⟩
    | ⟨1, _⟩ => ⟨(j 1).val, (j 1).isLt⟩
  refine ⟨k, ?_⟩
  rw [shapeCast_apply _ shapeCasts_S1x500000_S500000 p j
    (by rewrite [Shape.rowMajor_val_two, Shape.rowMajor_val_one]; have h0 : (p 0).val < 500000 := (p 0).isLt; show 0 * 500000 + ((p 0).val) % 500000 = (p 0).val; omega)]
  exact extractStridedSlice_apply ![1, 0] _ slices_S2x500000_S1x500000_1_0 j k (fun a => match a with
    | ⟨0, _⟩ => by show 1 + (j 0).val = 1 + (j 0).val; omega
    | ⟨1, _⟩ => by show (j 1).val = 0 + (j 1).val; omega)

/-- With every entry of the edge index array in [-100000, 100000), the first operand is the gather of the rows of
    `z` at the wrapped source nodes. -/
theorem V_zi_gather (c : Dev nD)
    (hr : ∀ i : S2x500000.Idx, -100000 ≤ ((m ((c : Thread nD τ).loc main_arg1) : IVec S2x500000 32) i).toInt
      ∧ ((m ((c : Thread nD τ).loc main_arg1) : IVec S2x500000 32) i).toInt < 100000) :
    (V m c main_v4 : (⟨S500000x128, .f32⟩ : BufTy).Contents (Elt F))
      = Host.gather gather_S100000x128_S500000x1_S500000x128_1_0_n_n_0_1_1128 (m ((c : Thread nD τ).loc main_arg0))
          (Take.starts (srcIdx m c)) := by
  rw [V_zi]
  exact Take.take_eq_gather _ _ fun p => by obtain ⟨i, e⟩ := srcIdx_apply m c p; rw [e]; exact hr i

/-- Likewise the second operand at the wrapped destination nodes. -/
theorem V_zj_gather (c : Dev nD)
    (hr : ∀ i : S2x500000.Idx, -100000 ≤ ((m ((c : Thread nD τ).loc main_arg1) : IVec S2x500000 32) i).toInt
      ∧ ((m ((c : Thread nD τ).loc main_arg1) : IVec S2x500000 32) i).toInt < 100000) :
    (V m c main_v5 : (⟨S500000x128, .f32⟩ : BufTy).Contents (Elt F))
      = Host.gather gather_S100000x128_S500000x1_S500000x128_1_0_n_n_0_1_1128 (m ((c : Thread nD τ).loc main_arg0))
          (Take.starts (dstIdx m c)) := by
  rw [V_zj]
  exact Take.take_eq_gather _ _ fun p => by obtain ⟨i, e⟩ := dstIdx_apply m c p; rw [e]; exact hr i

end Cert.KernelIdeal.HostSide

end
-- ==== Proof.RefValue.lean ====
/-
  The reference's result at an index. The reference gathers the two endpoint rows of every edge, joins the rows,
  their absolute difference and their product into 512 features, multiplies by the first-layer weights, adds the
  bias, clips at zero, multiplies by the second-layer weights and adds the output bias; the [500000 × 1] result is
  then flattened. Read at edge `e` this is the edge's score of the two gathered rows, the contraction over the 512
  features taken whole. The two gathers are left as they are: they are the same terms on the kernel's side.
-/
import proofs.«412763_j85341000172344_3_alg».proof.Proof.Gen.ReferenceIdeal.Read
import proofs.«412763_j85341000172344_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.EdgeScore

/-- The one column of the [500000 × 1] array of scores. -/
abbrev z0 : Fin 1 := ⟨0, Nat.one_pos⟩

/-- The four 128-lane arrays joined along the lanes, read at edge `e`, lane `k` of 512, are the edge's features. -/
theorem feats_apply (zi zj : FVec Ideal S500000x128 .f32) (e : Fin 500000) (k : Fin 512) :
    concatenate S500000x512 1 [⟨S500000x128, zi⟩, ⟨S500000x128, zj⟩, ⟨S500000x128, Host.absf (subf zi zj)⟩, ⟨S500000x128, mulf zi zj⟩]
        concatenates_S500000x128_S500000x128_S500000x128_S500000x128_S500000x512_d1 (ix2 e k)
      = feat (fun q => zi (ix2 e q)) (fun q => zj (ix2 e q)) k := by
  unfold feat
  by_cases h1 : k.val < 128
  · rw [dif_pos h1]
    exact concatenate_apply_piece 1 _ _ (ix2 e k) 0 (by show 0 < 4; omega) S500000x128 zi rfl rfl 0 rfl (ix2 e ⟨k.val, h1⟩)
      (fun b => match b with
        | ⟨0, _⟩ => fun _ => rfl
        | ⟨1, _⟩ => fun hne => absurd rfl hne)
      (by show 0 + k.val = k.val; omega)
  · rw [dif_neg h1]
    by_cases h2 : k.val < 256
    · rw [dif_pos h2]
      exact concatenate_apply_piece 1 _ _ (ix2 e k) 1 (by show 1 < 4; omega) S500000x128 zj rfl rfl 128 rfl (ix2 e ⟨k.val - 128, by omega⟩)
        (fun b => match b with
          | ⟨0, _⟩ => fun _ => rfl
          | ⟨1, _⟩ => fun hne => absurd rfl hne)
        (by show 128 + (k.val - 128) = k.val; omega)
    · rw [dif_neg h2]
      by_cases h3 : k.val < 384
      · rw [dif_pos h3]
        exact concatenate_apply_piece 1 _ _ (ix2 e k) 2 (by show 2 < 4; omega) S500000x128 (Host.absf (subf zi zj)) rfl rfl 256 rfl
          (ix2 e ⟨k.val - 256, by omega⟩)
          (fun b => match b with
            | ⟨0, _⟩ => fun _ => rfl
            | ⟨1, _⟩ => fun hne => absurd rfl hne)
          (by show 256 + (k.val - 256) = k.val; omega)
      · rw [dif_neg h3]
        exact concatenate_apply_piece 1 _ _ (ix2 e k) 3 (by show 3 < 4; omega) S500000x128 (mulf zi zj) rfl rfl 384 rfl
          (ix2 e ⟨k.val - 384, by omega⟩)
          (fun b => match b with
            | ⟨0, _⟩ => fun _ => rfl
            | ⟨1, _⟩ => fun hne => absurd rfl hne)
          (by show 384 + (k.val - 384) = k.val; omega)

/-- The joined feature array at edge `e`, lane `k`. -/
theorem joined_apply (x0 : (⟨S100000x128, .f32⟩ : BufTy).Contents (Elt Ideal)) (x1 : (⟨S2x500000, .i32⟩ : BufTy).Contents (Elt Ideal))
    (e : Fin 500000) (k : Fin 512) :
    val_main_v21 (F := Ideal) x0 x1 (ix2 e k)
      = feat (fun q => val_main_v10 (F := Ideal) x0 x1 (ix2 e q)) (fun q => val_main_v17 (F := Ideal) x0 x1 (ix2 e q)) k := by
  unfold val_main_v21 val_main_v19 val_main_v18 val_main_v20
  exact feats_apply _ _ e k

/-- Hidden unit `n` of edge `e`. -/
theorem hidden_apply (x0 : (⟨S100000x128, .f32⟩ : BufTy).Contents (Elt Ideal)) (x1 : (⟨S2x500000, .i32⟩ : BufTy).Contents (Elt Ideal))
    (x2 : (⟨S512x128, .f32⟩ : BufTy).Contents (Elt Ideal)) (x3 : (⟨S128, .f32⟩ : BufTy).Contents (Elt Ideal))
    (e : Fin 500000) (n : Fin 128) :
    val_main_v26 (F := Ideal) x0 x1 x2 x3 (ix2 e n)
      = hiddenUnit (fun q => val_main_v10 (F := Ideal) x0 x1 (ix2 e q)) (fun q => val_main_v17 (F := Ideal) x0 x1 (ix2 e q))
          (fun k n => x2 (ix2 k n)) (fun n => x3 (ix1 n)) n := by
  rw [val_main_v26_apply, val_main_v25_apply, val_main_v22_apply, val_main_v24_apply, val_main_v23_apply,
    val_main_call0_v0_apply, val_main_call0_cst_apply]
  unfold hiddenUnit
  have e1 : ∀ k : Fin 512, lidx_main_v22 (ix2 e n) k = ix2 e k := fun k => funext fun a => Fin.ext (by
    match a with
    | ⟨0, _⟩ => rfl
    | ⟨1, _⟩ => rfl)
  have e2 : ∀ k : Fin 512, ridx_main_v22 (ix2 e n) k = ix2 k n := fun k => funext fun a => Fin.ext (by
    match a with
    | ⟨0, _⟩ => rfl
    | ⟨1, _⟩ => rfl)
  have e3 : idx_main_v23 (idx_main_v24 (ix2 e n)) = ix1 n := funext fun a => Fin.ext (by
    match a with
    | ⟨0, _⟩ => rfl)
  simp only [e1, e2, e3, joined_apply, Ideal.maximumf_def, Ideal.addf_def, Ideal.ofBits_def, Ideal.ofBits_zero_f32]

/-- The reference's result at edge `e` is the edge's score of the two gathered rows. -/
theorem result_apply (x0 : (⟨S100000x128, .f32⟩ : BufTy).Contents (Elt Ideal)) (x1 : (⟨S2x500000, .i32⟩ : BufTy).Contents (Elt Ideal))
    (x2 : (⟨S512x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) (e : Fin 500000) :
    val_main_v31 (F := Ideal) x0 x1 x2 x3 x4 x5 (ix1 e)
      = score (fun q => val_main_v10 (F := Ideal) x0 x1 (ix2 e q)) (fun q => val_main_v17 (F := Ideal) x0 x1 (ix2 e q))
          (fun k n => x2 (ix2 k n)) (fun n => x3 (ix1 n)) (fun n => x4 (ix2 n z0)) (x5 (ix1 z0)) := by
  rw [val_main_v31_apply, val_main_v30_apply, val_main_v27_apply, val_main_v29_apply, val_main_v28_apply]
  unfold score
  have e1 : ∀ k : Fin 128, lidx_main_v27 (idx_main_v31 (ix1 e)) k = ix2 e k := fun k => funext fun a => Fin.ext (by
    match a with
    | ⟨0, _⟩ => show e.val / 1 = e.val; omega
    | ⟨1, _⟩ => rfl)
  have e2 : ∀ k : Fin 128, ridx_main_v27 (idx_main_v31 (ix1 e)) k = ix2 k z0 := fun k => funext fun a => Fin.ext (by
    match a with
    | ⟨0, _⟩ => rfl
    | ⟨1, _⟩ => rfl)
  have e3 : idx_main_v28 (idx_main_v29 (idx_main_v31 (ix1 e))) = ix1 z0 := funext fun a => Fin.ext (by
    match a with
    | ⟨0, _⟩ => rfl)
  simp only [e1, e2, e3, hidden_apply, Ideal.addf_def]

end Cert.ReferenceIdeal.RefValue

end
-- ==== Proof.Bridge.lean ====
/-
  The two programs compute one function. The kernel's array of scores, with each operand array spelt over the
  launched arguments (under the index range the two takes are gathers at the wrapped indices; at the ideal values
  the narrowed weights are the weights), has at row `e` the score of edge `e` with the first-layer contraction in
  two halves. The reference's result at `e` is the same score with the contraction whole, over the same two
  gathered rows. The halves add up to the whole, so the reference's result vector is the kernel's array flattened.
-/
import proofs.«412763_j85341000172344_3_alg».proof.Proof.KernelValue
import proofs.«412763_j85341000172344_3_alg».proof.Proof.KernelHost
import proofs.«412763_j85341000172344_3_alg».proof.Proof.RefValue

set_option maxRecDepth 16384

noncomputable section

namespace Cert.KernelIdeal.Bridge

open Cert.KernelIdeal Cert.KernelIdeal.Gen Cert.KernelIdeal.Payload Cert.KernelIdeal.Scores Cert.KernelIdeal.HostSide
open Idealize.ShloMosaic Idealize.ShloMosaic.TcCoe Idealize.ShloMosaic.ValueIdx Idealize.SL.Sem Cert.EdgeScore

variable (m : (ℓ : Loc nD τ sig) → Buf (Elt Ideal) ℓ)

/-- The kernel's array of scores over the launched arguments. -/
theorem scores_eq (c : Dev nD)
    (hr : ∀ i : S2x500000.Idx, -100000 ≤ ((m ((c : Thread nD τ).loc main_arg1) : IVec S2x500000 32) i).toInt
      ∧ ((m ((c : Thread nD τ).loc main_arg1) : IVec S2x500000 32) i).toInt < 100000) :
    scores m c
      = scoresOf
          (Host.gather gather_S100000x128_S500000x1_S500000x128_1_0_n_n_0_1_1128 (m ((c : Thread nD τ).loc main_arg0)) (Take.starts (srcIdx m c)))
          (Host.gather gather_S100000x128_S500000x1_S500000x128_1_0_n_n_0_1_1128 (m ((c : Thread nD τ).loc main_arg0)) (Take.starts (dstIdx m c)))
          (truncf (F := Ideal) (s := S512x128) (φ := .f32) .bf16 (m ((c : Thread nD τ).loc main_arg2)) bitsLt_bf16_f32)
          (m ((c : Thread nD τ).loc main_arg3))
          (truncf (F := Ideal) (s := S128x1) (φ := .f32) .bf16 (m ((c : Thread nD τ).loc main_arg4)) bitsLt_bf16_f32)
          (m ((c : Thread nD τ).loc main_arg5)) := by
  show scoresOf (V m c main_v4) (V m c main_v5) (V m c main_v6) (V m c main_arg3) (V m c main_v7) (V m c main_arg5) = _
  rw [V_zi_gather m c hr, V_zj_gather m c hr, V_w1 m c, V_w2 m c, V_main_arg3 m c, V_main_arg5 m c]

/-- The reference's result is the kernel's array of scores, flattened. -/
theorem ref_eq (m' : (ℓ : Loc Cert.ReferenceIdeal.nD Cert.ReferenceIdeal.τ Cert.ReferenceIdeal.sig) → Buf (Elt Ideal) ℓ) (c : Dev nD)
    (hr : ∀ i : S2x500000.Idx, -100000 ≤ ((m ((c : Thread nD τ).loc main_arg1) : IVec S2x500000 32) i).toInt
      ∧ ((m ((c : Thread nD τ).loc main_arg1) : IVec S2x500000 32) i).toInt < 100000)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v31 m' c = shapeCast S500000 (scores m c) shapeCasts_S500000x1_S500000 := by
  rw [Cert.ReferenceIdeal.Read.val_main_v31_eq, h0, h1, h2, h3, h4, h5, scores_eq m c hr]
  funext i
  obtain ⟨e, rfl⟩ : ∃ e : Fin 500000, i = ix1 e := ⟨i 0, eq_ix1 i⟩
  rw [Cert.ReferenceIdeal.RefValue.result_apply, score_eq_halves,
    shapeCast_apply _ shapeCasts_S500000x1_S500000 (ix1 e) (ix2 e z0)
      (by rewrite [Shape.rowMajor_val_two, Shape.rowMajor_val_one]; show e.val * 1 + 0 = e.val; omega)]
  rfl

end Cert.KernelIdeal.Bridge

end
-- ==== Proof.lean ====
/-
  A link-prediction decoder: for each of 500000 edges, the rows of `z` at the edge's two endpoints are gathered,
  the features `[zi, zj, |zi − zj|, zi · zj]` (512 lanes) go through a 512 → 128 layer with bias and a clip at
  zero, then a 128 → 1 layer with bias. The kernel computes the score in blocks of 5000 edges, the first layer's
  contraction in two halves of 256 lanes; the reference computes it whole. Both gather the rows on the host.

  Over the extended reals the two programs agree wherever the edge indices address the table: every index in
  [-100000, 100000) (a negative index counts from the end). There the kernel's `take`, which replaces rows whose index
  falls outside the table by a fill value, is the plain gather the reference uses; outside that range the reference
  itself indexes past the table. The contraction over 512 lanes is the sum of the contractions over its two halves
  (a finite sum splits in any additive commutative monoid), a matrix product into a zero accumulator is the sum over
  the contracted index, and the changes of float format are the identity; nothing else separates the two results.
  No finiteness of the float inputs is used.

  The frames of the two kernel programs are the generated ones; the reference's frame is its generated run with the
  result dropped; the idealization rewrote nothing, so `preserves` is trivial.
-/
import proofs.«412763_j85341000172344_3_alg».proof.Defs
import proofs.«412763_j85341000172344_3_alg».proof.Proof.Gen.Kernel
import proofs.«412763_j85341000172344_3_alg».proof.Proof.Gen.Kernel.Skeleton
import proofs.«412763_j85341000172344_3_alg».proof.Proof.Gen.Kernel.Launch
import proofs.«412763_j85341000172344_3_alg».proof.Proof.Gen.Kernel.Points
import proofs.«412763_j85341000172344_3_alg».proof.Proof.Gen.Kernel.Frame
import proofs.«412763_j85341000172344_3_alg».proof.Proof.Gen.KernelIdeal
import proofs.«412763_j85341000172344_3_alg».proof.Proof.Gen.KernelIdeal.Skeleton
import proofs.«412763_j85341000172344_3_alg».proof.Proof.Gen.KernelIdeal.Launch
import proofs.«412763_j85341000172344_3_alg».proof.Proof.Gen.KernelIdeal.Points
import proofs.«412763_j85341000172344_3_alg».proof.Proof.Gen.KernelIdeal.Frame
import proofs.«412763_j85341000172344_3_alg».proof.Proof.Gen.ReferenceIdeal
import proofs.«412763_j85341000172344_3_alg».proof.Proof.Gen.ReferenceIdeal.Run
import proofs.«412763_j85341000172344_3_alg».proof.Proof.Gen.ReferenceIdeal.Read
import proofs.«412763_j85341000172344_3_alg».proof.Proof.Gen.Pre_finite_inputs
import proofs.«412763_j85341000172344_3_alg».proof.Proof.IndexRange
import proofs.«412763_j85341000172344_3_alg».proof.Proof.KernelRun
import proofs.«412763_j85341000172344_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result vector is its array of scores flattened; under the index range of the precondition, and from
    memories agreeing on the arguments, the reference's result vector is the same function of the arguments. -/
theorem algebraic : Cert.algebraic_KernelIdeal_ReferenceIdeal := by
  intro m ρ m' ρ' hpre hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact Cert.KernelIdeal.Bridge.ref_eq m m' c (fun i => Cert.IndexRange.in_range _ _ _ _ _ _ (hpre c) i) h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
